-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x24x10x128x128 : Shape := ⟨5, ![8, 24, 10, 128, 128]⟩
abbrev S8x24 : Shape := ⟨2, ![8, 24]⟩
abbrev S8x365x11 : Shape := ⟨3, ![8, 365, 11]⟩
abbrev S8x365 : Shape := ⟨2, ![8, 365]⟩
abbrev S_ : Shape := ⟨0, ![]⟩

class Facts : Prop where
  bcast_S_S8x24x10x128x128 : S_.BroadcastsInDim S8x24x10x128x128 (![] : Fin 0 → Fin S8x24x10x128x128.rank)
  reducesTo_S8x24x10x128x128_S_d0_1_2_3_4 : S8x24x10x128x128.ReducesTo [0, 1, 2, 3, 4] S_
  h_S_ : 0 < S_.numel
  bcast_S_S8x365x11 : S_.BroadcastsInDim S8x365x11 (![] : Fin 0 → Fin S8x365x11.rank)
  reducesTo_S8x365x11_S_d0_1_2 : S8x365x11.ReducesTo [0, 1, 2] S_

variable [Facts]

def fn {F : FTy → Type} [FloatOps F] (main_arg0 : FVec F S8x24x10x128x128 .f32) (main_arg1 : IVec S8x24 32) (main_arg2 : FVec F S8x365x11 .f32) (main_arg3 : IVec S8x365 32) : IVec S_ 1 :=
  let main_v0 : FVec F S8x24x10x128x128 .f32 := Host.absf main_arg0
  let main_cst : FVec F S_ .f32 := constant S_ .f32 0x7F800000#32
  let main_v1 : FVec F S8x24x10x128x128 .f32 := broadcastInDim S8x24x10x128x128 ![] bcast_S_S8x24x10x128x128 main_cst
  let main_v2 : IVec S8x24x10x128x128 1 := cmpf .olt main_v0 main_v1
  let main_c : IVec S_ 1 := constantI S_ 1 1#1
  let main_v3 : IVec S_ 1 := (fun x v => Host.reduce IntOp.andi x v reducesTo_S8x24x10x128x128_S_d0_1_2_3_4 h_S_) main_v2 main_c
  let main_v4 : FVec F S8x365x11 .f32 := Host.absf main_arg2
  let main_cst_0 : FVec F S_ .f32 := constant S_ .f32 0x7F800000#32
  let main_v5 : FVec F S8x365x11 .f32 := broadcastInDim S8x365x11 ![] bcast_S_S8x365x11 main_cst_0
  let main_v6 : IVec S8x365x11 1 := cmpf .olt main_v4 main_v5
  let main_c_1 : IVec S_ 1 := constantI S_ 1 1#1
  let main_v7 : IVec S_ 1 := (fun x v => Host.reduce IntOp.andi x v reducesTo_S8x365x11_S_d0_1_2 h_S_) main_v6 main_c_1
  let main_v8 : IVec S_ 1 := andi main_v3 main_v7
  main_v8
-- ==== Kernel.lean ====
abbrev S8x24x10x128x128 : Shape := ⟨5, ![8, 24, 10, 128, 128]⟩
abbrev S8x24 : Shape := ⟨2, ![8, 24]⟩
abbrev S8x365x11 : Shape := ⟨3, ![8, 365, 11]⟩
abbrev S8x365 : Shape := ⟨2, ![8, 365]⟩
abbrev S8x24x1 : Shape := ⟨3, ![8, 24, 1]⟩
abbrev S8x1x365 : Shape := ⟨3, ![8, 1, 365]⟩
abbrev S8x24x365 : Shape := ⟨3, ![8, 24, 365]⟩
abbrev S_ : Shape := ⟨0, ![]⟩
abbrev S1 : Shape := ⟨1, ![1]⟩
abbrev S1x1x1 : Shape := ⟨3, ![1, 1, 1]⟩
abbrev S8x24x11 : Shape := ⟨3, ![8, 24, 11]⟩
abbrev S192x10x128x128 : Shape := ⟨4, ![192, 10, 128, 128]⟩
abbrev S192x1x11 : Shape := ⟨3, ![192, 1, 11]⟩
abbrev S192x21x128x128 : Shape := ⟨4, ![192, 21, 128, 128]⟩
abbrev S8x10x128x128 : Shape := ⟨4, ![8, 10, 128, 128]⟩
abbrev S8x1x11 : Shape := ⟨3, ![8, 1, 11]⟩
abbrev S8x21x128x128 : Shape := ⟨4, ![8, 21, 128, 128]⟩
abbrev S8x11 : Shape := ⟨2, ![8, 11]⟩
abbrev S8x11x1x1 : Shape := ⟨4, ![8, 11, 1, 1]⟩
abbrev S8x11x128x128 : Shape := ⟨4, ![8, 11, 128, 128]⟩
abbrev S8x24x21x128x128 : Shape := ⟨5, ![8, 24, 21, 128, 128]⟩

abbrev nBuf : Space → Nat
  | .hbm => 48
  | .vmem => 6
  | .smem => 0
  | _ => 0

abbrev bufTy : (tb : Table) → Fin (tcTables nBuf tb) → BufTy
  | .hbm, ⟨0, _⟩ => ⟨S8x24x10x128x128, .f32⟩
  | .hbm, ⟨1, _⟩ => ⟨S8x24, .i32⟩
  | .hbm, ⟨2, _⟩ => ⟨S8x365x11, .f32⟩
  | .hbm, ⟨3, _⟩ => ⟨S8x365, .i32⟩
  | .hbm, ⟨4, _⟩ => ⟨S8x24x1, .i32⟩
  | .hbm, ⟨5, _⟩ => ⟨S8x1x365, .i32⟩
  | .hbm, ⟨6, _⟩ => ⟨S8x24x365, .i32⟩
  | .hbm, ⟨7, _⟩ => ⟨S8x24x365, .i32⟩
  | .hbm, ⟨8, _⟩ => ⟨S8x24x365, .i1⟩
  | .hbm, ⟨9, _⟩ => ⟨S8x24x365, .i32⟩
  | .hbm, ⟨10, _⟩ => ⟨S_, .i1⟩
  | .hbm, ⟨11, _⟩ => ⟨S_, .i32⟩
  | .hbm, ⟨12, _⟩ => ⟨S8x24, .i1⟩
  | .hbm, ⟨13, _⟩ => ⟨S8x24, .i32⟩
  | .hbm, ⟨14, _⟩ => ⟨S_, .i1⟩
  | .hbm, ⟨15, _⟩ => ⟨S8x24, .i1⟩
  | .hbm, ⟨16, _⟩ => ⟨S8x24x1, .i32⟩
  | .hbm, ⟨17, _⟩ => ⟨S_, .i32⟩
  | .hbm, ⟨18, _⟩ => ⟨S8x24x1, .i32⟩
  | .hbm, ⟨19, _⟩ => ⟨S8x24x1, .i1⟩
  | .hbm, ⟨20, _⟩ => ⟨S_, .i32⟩
  | .hbm, ⟨21, _⟩ => ⟨S8x24x1, .i32⟩
  | .hbm, ⟨22, _⟩ => ⟨S8x24x1, .i32⟩
  | .hbm, ⟨23, _⟩ => ⟨S8x24x1, .i32⟩
  | .hbm, ⟨24, _⟩ => ⟨S1, .i32⟩
  | .hbm, ⟨25, _⟩ => ⟨S_, .i32⟩
  | .hbm, ⟨26, _⟩ => ⟨S8x24x1, .i32⟩
  | .hbm, ⟨27, _⟩ => ⟨S8x24x1, .i1⟩
  | .hbm, ⟨28, _⟩ => ⟨S1x1x1, .i32⟩
  | .hbm, ⟨29, _⟩ => ⟨S8x24x1, .i32⟩
  | .hbm, ⟨30, _⟩ => ⟨S8x24x1, .i1⟩
  | .hbm, ⟨31, _⟩ => ⟨S8x24x1, .i1⟩
  | .hbm, ⟨32, _⟩ => ⟨S_, .i1⟩
  | .hbm, ⟨33, _⟩ => ⟨S8x24, .i1⟩
  | .hbm, ⟨34, _⟩ => ⟨S8x24x11, .f32⟩
  | .hbm, ⟨35, _⟩ => ⟨S8x24x11, .i1⟩
  | .hbm, ⟨36, _⟩ => ⟨S_, .f32⟩
  | .hbm, ⟨37, _⟩ => ⟨S8x24x11, .f32⟩
  | .hbm, ⟨38, _⟩ => ⟨S8x24x11, .f32⟩
  | .hbm, ⟨39, _⟩ => ⟨S8x24x1, .i1⟩
  | .hbm, ⟨40, _⟩ => ⟨S_, .f32⟩
  | .hbm, ⟨41, _⟩ => ⟨S8x24x11, .i1⟩
  | .hbm, ⟨42, _⟩ => ⟨S8x24x11, .f32⟩
  | .hbm, ⟨43, _⟩ => ⟨S8x24x11, .f32⟩
  | .hbm, ⟨44, _⟩ => ⟨S192x10x128x128, .f32⟩
  | .hbm, ⟨45, _⟩ => ⟨S192x1x11, .f32⟩
  | .hbm, ⟨46, _⟩ => ⟨S192x21x128x128, .f32⟩
  | .hbm, ⟨47, _⟩ => ⟨S8x24x21x128x128, .f32⟩
  | .local _ .vmem, ⟨0, _⟩ => ⟨S8x10x128x128, .f32⟩
  | .local _ .vmem, ⟨1, _⟩ => ⟨S8x10x128x128, .f32⟩
  | .local _ .vmem, ⟨2, _⟩ => ⟨S8x1x11, .f32⟩
  | .local _ .vmem, ⟨3, _⟩ => ⟨S8x1x11, .f32⟩
  | .local _ .vmem, ⟨4, _⟩ => ⟨S8x21x128x128, .f32⟩
  | .local _ .vmem, ⟨5, _⟩ => ⟨S8x21x128x128, .f32⟩
  | _, _ => ⟨S8x24x10x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_c_0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_c_1 : Ref sig .tc := ⟨.hbm, 24, rfl⟩
abbrev main_call1_c_2 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_c_3 : Ref sig .tc := ⟨.hbm, 32, rfl⟩
abbrev main_call1_v11 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x10x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x21x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S8x24_S8x24x1_0_1 : S8x24.BroadcastsInDim S8x24x1 (![0, 1] : Fin 2 → Fin S8x24x1.rank)
  bcast_S8x365_S8x1x365_0_2 : S8x365.BroadcastsInDim S8x1x365 (![0, 2] : Fin 2 → Fin S8x1x365.rank)
  bcast_S8x24x1_S8x24x365_0_1_2 : S8x24x1.BroadcastsInDim S8x24x365 (![0, 1, 2] : Fin 3 → Fin S8x24x365.rank)
  bcast_S8x1x365_S8x24x365_0_1_2 : S8x1x365.BroadcastsInDim S8x24x365 (![0, 1, 2] : Fin 3 → Fin S8x24x365.rank)
  reducesTo_S8x24x365_S8x24_d2 : S8x24x365.ReducesTo [2] S8x24
  h_S_ : 0 < S_.numel
  bcast_S_S8x24x1 : S_.BroadcastsInDim S8x24x1 (![] : Fin 0 → Fin S8x24x1.rank)
  bcast_S1_S1x1x1_2 : S1.BroadcastsInDim S1x1x1 (![2] : Fin 1 → Fin S1x1x1.rank)
  bcast_S1x1x1_S8x24x1_0_1_2 : S1x1x1.BroadcastsInDim S8x24x1 (![0, 1, 2] : Fin 3 → Fin S8x24x1.rank)
  reducesTo_S8x24x1_S8x24_d2 : S8x24x1.ReducesTo [2] S8x24
  bcast_S8x24_S8x24x11_0_1 : S8x24.BroadcastsInDim S8x24x11 (![0, 1] : Fin 2 → Fin S8x24x11.rank)
  bcast_S_S8x24x11 : S_.BroadcastsInDim S8x24x11 (![] : Fin 0 → Fin S8x24x11.rank)
  bcast_S8x24x1_S8x24x11_0_1_2 : S8x24x1.BroadcastsInDim S8x24x11 (![0, 1, 2] : Fin 3 → Fin S8x24x11.rank)
  shapeCasts_S8x24x10x128x128_S192x10x128x128 : S8x24x10x128x128.ShapeCasts S192x10x128x128
  shapeCasts_S8x24x11_S192x1x11 : S8x24x11.ShapeCasts S192x1x11
  inb_S8x10x128x128_S8x10x128x128_0_0_0_0 : ∀ a, (![0, 0, 0, 0] : Fin 4 → Nat) a + S8x10x128x128.size a ≤ S8x10x128x128.size a
  h_S8x10x128x128 : 0 < S8x10x128x128.numel
  shapeCasts_S8x10x128x128_S8x10x128x128 : S8x10x128x128.ShapeCasts S8x10x128x128
  inb_S8x21x128x128_S8x10x128x128_0_0_0_0 : ∀ a, (![0, 0, 0, 0] : Fin 4 → Nat) a + S8x10x128x128.size a ≤ S8x21x128x128.size a
  inb_S8x1x11_S8x1x11_0_0_0 : ∀ a, (![0, 0, 0] : Fin 3 → Nat) a + S8x1x11.size a ≤ S8x1x11.size a
  h_S8x1x11 : 0 < S8x1x11.numel
  shapeCasts_S8x1x11_S8x11 : S8x1x11.ShapeCasts S8x11
  shapeCasts_S8x11_S8x11x1x1 : S8x11.ShapeCasts S8x11x1x1
  shapeCasts_S8x11x1x1_S8x11x1x1 : S8x11x1x1.ShapeCasts S8x11x1x1
  broadcasts_S8x11x1x1_S8x11x128x128 : S8x11x1x1.Broadcasts S8x11x128x128
  inb_S8x21x128x128_S8x11x128x128_0_10_0_0 : ∀ a, (![0, 10, 0, 0] : Fin 4 → Nat) a + S8x11x128x128.size a ≤ S8x21x128x128.size a
  h_S8x11x128x128 : 0 < S8x11x128x128.numel
  shapeCasts_S192x21x128x128_S8x24x21x128x128 : S192x21x128x128.ShapeCasts S8x24x21x128x128
  gather_S8x365x11_S8x24x1_S8x24x11_2_1_0_0_1_2_1111_wf : GatherDims.WF S8x365x11 S8x24x1 S8x24x11 [2] [1] [0] [1] [0] 2 ![1, 1, 11]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x10x128x128.size a ≤ S192x10x128x128.size a
  hwx0_0 : ∀ i : grid0.Coords, EltTy.bits .f32 = 32 ∨ (Rect.block (s := S192x10x128x128) S8x10x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x11.size a ≤ S192x1x11.size a
  hwx0_1 : ∀ i : grid0.Coords, EltTy.bits .f32 = 32 ∨ (Rect.block (s := S192x1x11) S8x1x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x21x128x128.size a ≤ S192x21x128x128.size a
  hwx0_2 : ∀ i : grid0.Coords, EltTy.bits .f32 = 32 ∨ (Rect.block (s := S192x21x128x128) S8x21x128x128.size (cc0_transform_2 i) (hinb0_2 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x365x11_S8x24x1_S8x24x11_2_1_0_0_1_2_1111 : GatherDims S8x365x11 S8x24x1 S8x24x11 where
  offsetDims := [2]
  collapsedSliceDims := [1]
  operandBatchingDims := [0]
  startIndicesBatchingDims := [0]
  startIndexMap := [1]
  indexVectorDim := 2
  sliceSizes := ![1, 1, 11]
  wf := gather_S8x365x11_S8x24x1_S8x24x11_2_1_0_0_1_2_1111_wf

abbrev win0_0 : Pipeline.Window sig grid0 :=
  Pipeline.Window.ofSpec (Memref.whole main_v11) S8x10x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8x1x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8x21x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x24x10x128x128 : Shape := ⟨5, ![8, 24, 10, 128, 128]⟩
abbrev S8x24 : Shape := ⟨2, ![8, 24]⟩
abbrev S8x365x11 : Shape := ⟨3, ![8, 365, 11]⟩
abbrev S8x365 : Shape := ⟨2, ![8, 365]⟩
abbrev S8x24x1 : Shape := ⟨3, ![8, 24, 1]⟩
abbrev S8x1x365 : Shape := ⟨3, ![8, 1, 365]⟩
abbrev S8x24x365 : Shape := ⟨3, ![8, 24, 365]⟩
abbrev S_ : Shape := ⟨0, ![]⟩
abbrev S1 : Shape := ⟨1, ![1]⟩
abbrev S1x1x1 : Shape := ⟨3, ![1, 1, 1]⟩
abbrev S8x24x11 : Shape := ⟨3, ![8, 24, 11]⟩
abbrev S8x24x11x1x1 : Shape := ⟨5, ![8, 24, 11, 1, 1]⟩
abbrev S8x24x11x128x128 : Shape := ⟨5, ![8, 24, 11, 128, 128]⟩
abbrev S8x24x21x128x128 : Shape := ⟨5, ![8, 24, 21, 128, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x24x10x128x128, .f32⟩
  | .hbm, ⟨1, _⟩ => ⟨S8x24, .i32⟩
  | .hbm, ⟨2, _⟩ => ⟨S8x365x11, .f32⟩
  | .hbm, ⟨3, _⟩ => ⟨S8x365, .i32⟩
  | .hbm, ⟨4, _⟩ => ⟨S8x24x1, .i32⟩
  | .hbm, ⟨5, _⟩ => ⟨S8x1x365, .i32⟩
  | .hbm, ⟨6, _⟩ => ⟨S8x24x365, .i32⟩
  | .hbm, ⟨7, _⟩ => ⟨S8x24x365, .i32⟩
  | .hbm, ⟨8, _⟩ => ⟨S8x24x365, .i1⟩
  | .hbm, ⟨9, _⟩ => ⟨S8x24x365, .i32⟩
  | .hbm, ⟨10, _⟩ => ⟨S_, .i1⟩
  | .hbm, ⟨11, _⟩ => ⟨S_, .i32⟩
  | .hbm, ⟨12, _⟩ => ⟨S8x24, .i1⟩
  | .hbm, ⟨13, _⟩ => ⟨S8x24, .i32⟩
  | .hbm, ⟨14, _⟩ => ⟨S_, .i1⟩
  | .hbm, ⟨15, _⟩ => ⟨S8x24, .i1⟩
  | .hbm, ⟨16, _⟩ => ⟨S8x24x1, .i32⟩
  | .hbm, ⟨17, _⟩ => ⟨S_, .i32⟩
  | .hbm, ⟨18, _⟩ => ⟨S8x24x1, .i32⟩
  | .hbm, ⟨19, _⟩ => ⟨S8x24x1, .i1⟩
  | .hbm, ⟨20, _⟩ => ⟨S_, .i32⟩
  | .hbm, ⟨21, _⟩ => ⟨S8x24x1, .i32⟩
  | .hbm, ⟨22, _⟩ => ⟨S8x24x1, .i32⟩
  | .hbm, ⟨23, _⟩ => ⟨S8x24x1, .i32⟩
  | .hbm, ⟨24, _⟩ => ⟨S1, .i32⟩
  | .hbm, ⟨25, _⟩ => ⟨S_, .i32⟩
  | .hbm, ⟨26, _⟩ => ⟨S8x24x1, .i32⟩
  | .hbm, ⟨27, _⟩ => ⟨S8x24x1, .i1⟩
  | .hbm, ⟨28, _⟩ => ⟨S1x1x1, .i32⟩
  | .hbm, ⟨29, _⟩ => ⟨S8x24x1, .i32⟩
  | .hbm, ⟨30, _⟩ => ⟨S8x24x1, .i1⟩
  | .hbm, ⟨31, _⟩ => ⟨S8x24x1, .i1⟩
  | .hbm, ⟨32, _⟩ => ⟨S_, .i1⟩
  | .hbm, ⟨33, _⟩ => ⟨S8x24, .i1⟩
  | .hbm, ⟨34, _⟩ => ⟨S8x24x11, .f32⟩
  | .hbm, ⟨35, _⟩ => ⟨S8x24x11, .i1⟩
  | .hbm, ⟨36, _⟩ => ⟨S_, .f32⟩
  | .hbm, ⟨37, _⟩ => ⟨S8x24x11, .f32⟩
  | .hbm, ⟨38, _⟩ => ⟨S8x24x11, .f32⟩
  | .hbm, ⟨39, _⟩ => ⟨S8x24x1, .i1⟩
  | .hbm, ⟨40, _⟩ => ⟨S_, .f32⟩
  | .hbm, ⟨41, _⟩ => ⟨S8x24x11, .i1⟩
  | .hbm, ⟨42, _⟩ => ⟨S8x24x11, .f32⟩
  | .hbm, ⟨43, _⟩ => ⟨S8x24x11, .f32⟩
  | .hbm, ⟨44, _⟩ => ⟨S8x24x11x1x1, .f32⟩
  | .hbm, ⟨45, _⟩ => ⟨S8x24x11x128x128, .f32⟩
  | .hbm, ⟨46, _⟩ => ⟨S8x24x21x128x128, .f32⟩
  | _, _ => ⟨S8x24x10x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_c_0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_c_1 : Ref sig .tc := ⟨.hbm, 24, rfl⟩
abbrev main_call1_c_2 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_c_3 : Ref sig .tc := ⟨.hbm, 32, rfl⟩
abbrev main_call1_v11 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩

abbrev nD : Nat := 1
abbrev τ : Topo := Topo.v7x

variable {F : FTy → Type} [FloatOps F]

class Facts₀ : Prop where
  bcast_S8x24_S8x24x1_0_1 : S8x24.BroadcastsInDim S8x24x1 (![0, 1] : Fin 2 → Fin S8x24x1.rank)
  bcast_S8x365_S8x1x365_0_2 : S8x365.BroadcastsInDim S8x1x365 (![0, 2] : Fin 2 → Fin S8x1x365.rank)
  bcast_S8x24x1_S8x24x365_0_1_2 : S8x24x1.BroadcastsInDim S8x24x365 (![0, 1, 2] : Fin 3 → Fin S8x24x365.rank)
  bcast_S8x1x365_S8x24x365_0_1_2 : S8x1x365.BroadcastsInDim S8x24x365 (![0, 1, 2] : Fin 3 → Fin S8x24x365.rank)
  reducesTo_S8x24x365_S8x24_d2 : S8x24x365.ReducesTo [2] S8x24
  h_S_ : 0 < S_.numel
  bcast_S_S8x24x1 : S_.BroadcastsInDim S8x24x1 (![] : Fin 0 → Fin S8x24x1.rank)
  bcast_S1_S1x1x1_2 : S1.BroadcastsInDim S1x1x1 (![2] : Fin 1 → Fin S1x1x1.rank)
  bcast_S1x1x1_S8x24x1_0_1_2 : S1x1x1.BroadcastsInDim S8x24x1 (![0, 1, 2] : Fin 3 → Fin S8x24x1.rank)
  reducesTo_S8x24x1_S8x24_d2 : S8x24x1.ReducesTo [2] S8x24
  bcast_S8x24_S8x24x11_0_1 : S8x24.BroadcastsInDim S8x24x11 (![0, 1] : Fin 2 → Fin S8x24x11.rank)
  bcast_S_S8x24x11 : S_.BroadcastsInDim S8x24x11 (![] : Fin 0 → Fin S8x24x11.rank)
  bcast_S8x24x1_S8x24x11_0_1_2 : S8x24x1.BroadcastsInDim S8x24x11 (![0, 1, 2] : Fin 3 → Fin S8x24x11.rank)
  bcast_S8x24x11_S8x24x11x1x1_0_1_2 : S8x24x11.BroadcastsInDim S8x24x11x1x1 (![0, 1, 2] : Fin 3 → Fin S8x24x11x1x1.rank)
  bcast_S8x24x11x1x1_S8x24x11x128x128_0_1_2_3_4 : S8x24x11x1x1.BroadcastsInDim S8x24x11x128x128 (![0, 1, 2, 3, 4] : Fin 5 → Fin S8x24x11x128x128.rank)
  concatenates_S8x24x10x128x128_S8x24x11x128x128_S8x24x21x128x128_d2 : Shape.Concatenates [S8x24x10x128x128, S8x24x11x128x128] S8x24x21x128x128 2
  gather_S8x365x11_S8x24x1_S8x24x11_2_1_0_0_1_2_1111_wf : GatherDims.WF S8x365x11 S8x24x1 S8x24x11 [2] [1] [0] [1] [0] 2 ![1, 1, 11]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x365x11_S8x24x1_S8x24x11_2_1_0_0_1_2_1111 : GatherDims S8x365x11 S8x24x1 S8x24x11 where
  offsetDims := [2]
  collapsedSliceDims := [1]
  operandBatchingDims := [0]
  startIndicesBatchingDims := [0]
  startIndexMap := [1]
  indexVectorDim := 2
  sliceSizes := ![1, 1, 11]
  wf := gather_S8x365x11_S8x24x1_S8x24x11_2_1_0_0_1_2_1111_wf

class Facts : Prop extends Facts₀ where

variable [Facts]
-- ==== Proof.KernelBody.lean ====
/-
  What the kernel body leaves in its output block, read at an index.

  At a grid point the body holds a block of 8 acquisitions: the satellite block x0 (8 x 10 x 128 x 128), the
  climate block x1 (8 x 1 x 11) and the output block (8 x 21 x 128 x 128). It stores x0 into channels 0 .. 9 of the
  output block, and into channels 10 .. 20 the climate block with its unit axis dropped and each value repeated
  over the 128 x 128 pixels. So the output block at (b, ch, y, x) is x0 at (b, ch, y, x) for ch < 10 and x1 at
  (b, 0, ch - 10) from there on. The two stores' rectangles are disjoint and together cover the block: an index of a
  low channel lies outside the later store's rectangle and inside the earlier one's.
-/
import proofs.«146038_j56023553409154_1_alg».proof.Proof.Gen.KernelIdeal.Frame
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe Idealize.SL.Sem
open Idealize.ShloMosaic.ValueIdx

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The first store's payload is the satellite block itself. -/
theorem pay1_eq (x0 : Vec F S8x10x128x128 .f32) : k0_pay1 x0 = x0 := by
  unfold k0_pay1
  exact shapeCast_self _ _

/-- The second store's payload at (b, k, y, x) is the climate block's value k of row b, whatever the pixel. -/
theorem pay2_apply (x1 : Vec F S8x1x11 .f32) (b : Fin 8) (k : Fin 11) (y x : Fin 128) :
    k0_pay2 x1 (ix4 b k y x) = x1 (ix3 b (0 : Fin 1) k) := by
  unfold k0_pay2
  rw [broadcastTo_apply _ _ (ix4 b k y x) (ix4 b k (0 : Fin 1) (0 : Fin 1))
      (fun d => by match d with | ⟨0, _⟩ => rfl | ⟨1, _⟩ => rfl | ⟨2, _⟩ => rfl | ⟨3, _⟩ => rfl),
    shapeCast_self,
    shapeCast_apply _ _ (ix4 b k (0 : Fin 1) (0 : Fin 1)) (ix2 b k)
      (by rw [Shape.rowMajor_val_two, Shape.rowMajor_val_four]
          show b.val * 11 + k.val = ((b.val * 11 + k.val) * 1 + 0) * 1 + 0
          omega),
    shapeCast_apply _ _ (ix2 b k) (ix3 b (0 : Fin 1) k)
      (by rw [Shape.rowMajor_val_three, Shape.rowMajor_val_two]
          show (b.val * 1 + 0) * 11 + k.val = b.val * 11 + k.val
          omega)]

variable (c : Dev nD) (i : grid0.Coords) (a1 : Memref sig .tc .vmem S8x10x128x128 .f32) (h1 : a1.IsWhole)
    (a2 : Memref sig .tc .vmem S8x1x11 .f32) (h2 : a2.IsWhole) (a3 : Memref sig .tc .vmem S8x21x128x128 .f32) (h3 : a3.IsWhole)
    (x0 : Vec F S8x10x128x128 .f32) (x1 : Vec F S8x1x11 .f32)

/-- A low channel of the output block is the satellite block's. -/
theorem out_low (b : Fin 8) (ch : Fin 10) (y x : Fin 128) :
    out0_A_2 c i a1 h1 a2 h2 a3 h3 x0 x1 (ix4 b (⟨ch.val, by have := ch.isLt; omega⟩ : Fin 21) y x) = x0 (ix4 b ch y x) := by
  unfold out0_A_2
  rw [View.read_writes_eq_canon _ _ _ (cover0_A_2 c i a1 h1 a2 h2 a3 h3 x0 x1)]
  unfold kernelRun0_A
  dsimp only
  simp only [View.readAt_eq_ld, h1.read_unread, h2.read_unread, View.ld_unit_zero (S := S8x10x128x128) hz4,
    View.ld_unit_zero (S := S8x1x11) hz3]
  rw [View.canon_cons_of_not_mem _ _ (by
    rw [Rect.mem_set_unit]
    intro h
    have h10 : 10 ≤ ch.val := (h 1).1
    have := ch.isLt
    omega)]
  have e : (ix4 b (⟨ch.val, by have := ch.isLt; omega⟩ : Fin 21) y x : S8x21x128x128.Idx)
      = (Rect.unit (s := S8x21x128x128) ![0, 0, 0, 0] S8x10x128x128.size inb_S8x21x128x128_S8x10x128x128_0_0_0_0).emb (ix4 b ch y x) := by
    funext d; apply Fin.ext
    match d with
    | ⟨0, _⟩ => show b.val = 0 + 1 * b.val; omega
    | ⟨1, _⟩ => show ch.val = 0 + 1 * ch.val; omega
    | ⟨2, _⟩ => show y.val = 0 + 1 * y.val; omega
    | ⟨3, _⟩ => show x.val = 0 + 1 * x.val; omega
  rw [e, View.canon_cons_emb, pay1_eq]

/-- A channel from ten on of the output block is the climate block's value, whatever the pixel. -/
theorem out_high (b : Fin 8) (k : Fin 11) (y x : Fin 128) :
    out0_A_2 c i a1 h1 a2 h2 a3 h3 x0 x1 (ix4 b (⟨10 + k.val, by have := k.isLt; omega⟩ : Fin 21) y x) = x1 (ix3 b (0 : Fin 1) k) := by
  unfold out0_A_2
  rw [View.read_writes_eq_canon _ _ _ (cover0_A_2 c i a1 h1 a2 h2 a3 h3 x0 x1)]
  unfold kernelRun0_A
  dsimp only
  simp only [View.readAt_eq_ld, h1.read_unread, h2.read_unread, View.ld_unit_zero (S := S8x10x128x128) hz4,
    View.ld_unit_zero (S := S8x1x11) hz3]
  have e : (ix4 b (⟨10 + k.val, by have := k.isLt; omega⟩ : Fin 21) y x : S8x21x128x128.Idx)
      = (Rect.unit (s := S8x21x128x128) ![0, 10, 0, 0] S8x11x128x128.size inb_S8x21x128x128_S8x11x128x128_0_10_0_0).emb (ix4 b k y x) := by
    funext d; apply Fin.ext
    match d with
    | ⟨0, _⟩ => show b.val = 0 + 1 * b.val; omega
    | ⟨1, _⟩ => show 10 + k.val = 10 + 1 * k.val; omega
    | ⟨2, _⟩ => show y.val = 0 + 1 * y.val; omega
    | ⟨3, _⟩ => show x.val = 0 + 1 * x.val; omega
  rw [e, View.canon_cons_emb, pay2_apply]

end Cert.KernelIdeal.Body

end
-- ==== Proof.MatchDates.lean ====
/-
  What both programs compute, stated once and over no program.

  Each of the 8 x 24 satellite acquisitions carries a date; each of the 8 batch elements has a table of 365 climate
  rows of 11 values, each row with a date of its own. For acquisition (b, t):

    * `sameDay`   the 365 flags "the acquisition's date equals the d-th climate date of batch element b";
    * `firstDay`  the position of the first set flag (position 0 when none is set): an arg-max of the flags that
                  keeps the smaller position on a tie;
    * `anyDay`    whether a flag is set at all;
    * `takeDay`   the climate row at that position (a position below zero counted from the end, the gather's start
                  clamped into the table, and a quiet NaN row if the position is still outside 0 .. 364);
    * `climRow`   that row when a flag is set, and the pad value -1000 in all 11 places otherwise.

  `fused` then lays the 10 satellite channels and, after them, the 11 climate values of the acquisition's row —
  each repeated over the 128 x 128 pixels — along the channel axis: channel ch < 10 of the result is the satellite
  channel ch, channel 10 + k is the k-th climate value at every pixel.

  Nothing here depends on the float instance beyond the two literals; no arithmetic is done on a float.
-/
import Idealize.ShloMosaic.PureOps

noncomputable section

namespace Cert.MatchDates

open Idealize.ShloMosaic

abbrev Ssat : Shape := ⟨5, ![8, 24, 10, 128, 128]⟩
abbrev Sdate : Shape := ⟨2, ![8, 24]⟩
abbrev Stable : Shape := ⟨3, ![8, 365, 11]⟩
abbrev Stdate : Shape := ⟨2, ![8, 365]⟩
abbrev Sdate1 : Shape := ⟨3, ![8, 24, 1]⟩
abbrev Stdate1 : Shape := ⟨3, ![8, 1, 365]⟩
abbrev Spair : Shape := ⟨3, ![8, 24, 365]⟩
abbrev S0 : Shape := ⟨0, ![]⟩
abbrev S1 : Shape := ⟨1, ![1]⟩
abbrev S111 : Shape := ⟨3, ![1, 1, 1]⟩
abbrev Srow : Shape := ⟨3, ![8, 24, 11]⟩
abbrev Srow11 : Shape := ⟨5, ![8, 24, 11, 1, 1]⟩
abbrev Smap : Shape := ⟨5, ![8, 24, 11, 128, 128]⟩
abbrev Sout : Shape := ⟨5, ![8, 24, 21, 128, 128]⟩

variable {F : FTy → Type} [FloatOps F]

/-- The arg-max's combining step on (flag, position) pairs: the pair with the greater flag wins, and of two pairs
    with equal flags the one with the smaller position. -/
def firstHit : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

/-- The gather that reads, for acquisition (b, t), the whole 11-value row of batch element b's table at the start
    position the index array gives. -/
def rowGather : GatherDims Stable Sdate1 Srow where
  offsetDims := [2]
  collapsedSliceDims := [1]
  operandBatchingDims := [0]
  startIndicesBatchingDims := [0]
  startIndexMap := [1]
  indexVectorDim := 2
  sliceSizes := ![1, 1, 11]

/-- The flags: acquisition (b, t)'s date against batch element b's d-th climate date. -/
def sameDay (ds : IVec Sdate 32) (dc : IVec Stdate 32) : IVec Spair 1 :=
  cmpi .eq
    (broadcastInDim Spair ![0, 1, 2] (by decide) (broadcastInDim Sdate1 ![0, 1] (by decide) ds))
    (broadcastInDim Spair ![0, 1, 2] (by decide) (broadcastInDim Stdate1 ![0, 2] (by decide) dc))

/-- The position of the first set flag along the table axis (0 when none is set). -/
def firstDay (e : IVec Spair 1) : IVec Sdate 32 :=
  fun j => (Host.reduce2 (axes := [2]) (t := Sdate) firstHit e (iotaInDim Spair 32 2) (constantI S0 1 0#1) (constantI S0 32 0#32) (by decide) (by decide) j).2

/-- Whether any flag is set along the table axis. -/
def anyDay (e : IVec Spair 1) : IVec Sdate 1 :=
  Host.reduce (axes := [2]) (t := Sdate) IntOp.ori e (constantI S0 1 0#1) (by decide) (by decide)

/-- The table's row at a position per acquisition: a negative position has 365 added, the row is gathered, and
    where the position is then still outside 0 .. 364 the row is the quiet NaN. -/
def takeDay (x : FVec F Stable .f32) (p : IVec Sdate1 32) : FVec F Srow .f32 :=
  let wrapped : IVec Sdate1 32 :=
    select (cmpi .slt p (broadcastInDim Sdate1 ![] (by decide) (constantI S0 32 0#32)))
      (addi p (broadcastInDim Sdate1 ![] (by decide) (constantI S0 32 365#32))) p
  let inside : IVec Sdate1 1 :=
    andi (cmpi .sge wrapped (broadcastInDim Sdate1 ![] (by decide) (constantI S0 32 0#32)))
      (cmpi .sle wrapped (broadcastInDim Sdate1 ![0, 1, 2] (by decide) (broadcastInDim S111 ![2] (by decide) (constantI S1 32 364#32))))
  let ok : IVec Sdate 1 := Host.reduce (axes := [2]) (t := Sdate) IntOp.andi inside (constantI S0 1 1#1) (by decide) (by decide)
  select (broadcastInDim Srow ![0, 1] (by decide) ok) (Host.gather rowGather x wrapped)
    (broadcastInDim Srow ![] (by decide) (constant S0 .f32 0x7FC00000#32))

/-- The climate row matched to each acquisition: the table's row at the first climate date equal to the
    acquisition's, and -1000 in every place when no climate date equals it. -/
def climRow (ds : IVec Sdate 32) (x : FVec F Stable .f32) (dc : IVec Stdate 32) : FVec F Srow .f32 :=
  select (broadcastInDim Srow ![0, 1, 2] (by decide) (broadcastInDim Sdate1 ![0, 1] (by decide) (anyDay (sameDay ds dc))))
    (takeDay x (broadcastInDim Sdate1 ![0, 1] (by decide) (firstDay (sameDay ds dc))))
    (broadcastInDim Srow ![] (by decide) (constant S0 .f32 0xC47A0000#32))

/-- The climate row of an acquisition repeated at every pixel. -/
def climMap {α : Type} (cl : Srow.Idx → α) : Smap.Idx → α :=
  broadcastInDim Smap ![0, 1, 2, 3, 4] (by decide) (broadcastInDim Srow11 ![0, 1, 2] (by decide) cl)

/-- Ten channels and eleven channels side by side are twenty-one. -/
theorem joins : Shape.Concatenates [Ssat, Smap] Sout 2 := by decide

/-- The result: the satellite channels, then the matched climate row's values as further channels. -/
def fused {α : Type} (sat : Ssat.Idx → α) (cl : Srow.Idx → α) : Sout.Idx → α :=
  concatenate Sout 2 [⟨Ssat, sat⟩, ⟨Smap, climMap cl⟩] joins

end Cert.MatchDates

end
-- ==== Proof.KernelHost.lean ====
/-
  What the region finds in its two input arrays: the host lines before the pallas call leave, in the first window's
  array, the satellite argument flattened to 192 rows, and in the second window's array the matched climate rows
  (`MatchDates.climRow` of the two date arguments and the climate table) flattened to 192 x 1 x 11.

  The lines are read in two stretches, as the reference's are: the first three groups (the flags, the arg-max, the
  any-reduction and the position column) over any contents of the buffers, then the remaining four (the take, the pad
  select, the two flattenings) over any contents, in which the position is a single name.
-/
import proofs.«146038_j56023553409154_1_alg».proof.Proof.Gen.KernelIdeal.Frame
import proofs.«146038_j56023553409154_1_alg».proof.Proof.MatchDates
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo Cert.MatchDates

variable {F : FTy → Type} [FloatOps F]

/-! ## The first stretch, over any contents -/

theorem any_eq (V : Valuation τ sig (Elt F)) :
    after hostOps0_2 (after hostOps0_1 (after hostOps0 V)) (Proc.devRef .tc main_v6)
      = anyDay (sameDay (V (Proc.devRef .tc main_arg1)) (V (Proc.devRef .tc main_arg3))) := by
  simp only [hostOps0, hostOps0_1, hostOps0_2]
  after_results
  rfl

theorem pos_eq (V : Valuation τ sig (Elt F)) :
    after hostOps0_2 (after hostOps0_1 (after hostOps0 V)) (Proc.devRef .tc main_v7)
      = broadcastInDim Sdate1 ![0, 1] (by decide) (firstDay (sameDay (V (Proc.devRef .tc main_arg1)) (V (Proc.devRef .tc main_arg3)))) := by
  simp only [hostOps0, hostOps0_1, hostOps0_2]
  after_results
  rfl

theorem keep1_arg0 (V : Valuation τ sig (Elt F)) :
    after hostOps0_2 (after hostOps0_1 (after hostOps0 V)) (Proc.devRef .tc main_arg0) = V (Proc.devRef .tc main_arg0) := by
  simp only [hostOps0, hostOps0_1, hostOps0_2]
  after_results

theorem keep1_arg2 (V : Valuation τ sig (Elt F)) :
    after hostOps0_2 (after hostOps0_1 (after hostOps0 V)) (Proc.devRef .tc main_arg2) = V (Proc.devRef .tc main_arg2) := by
  simp only [hostOps0, hostOps0_1, hostOps0_2]
  after_results

/-! ## The second stretch, over any contents -/

set_option maxHeartbeats 2000000 in
theorem rows_eq (W : Valuation τ sig (Elt F)) :
    after hostOps0_6 (after hostOps0_5 (after hostOps0_4 (after hostOps0_3 W))) (Proc.devRef .tc main_v12)
      = shapeCast S192x1x11
          (select (broadcastInDim Srow ![0, 1, 2] (by decide) (broadcastInDim Sdate1 ![0, 1] (by decide) (W (Proc.devRef .tc main_v6))))
            (takeDay (W (Proc.devRef .tc main_arg2)) (W (Proc.devRef .tc main_v7)))
            (broadcastInDim Srow ![] (by decide) (constant S0 .f32 0xC47A0000#32)))
          shapeCasts_S8x24x11_S192x1x11 := by
  simp only [hostOps0_3, hostOps0_4, hostOps0_5, hostOps0_6]
  after_results
  rfl

theorem sat_eq (W : Valuation τ sig (Elt F)) :
    after hostOps0_6 (after hostOps0_5 (after hostOps0_4 (after hostOps0_3 W))) (Proc.devRef .tc main_v11)
      = shapeCast S192x10x128x128 (W (Proc.devRef .tc main_arg0)) shapeCasts_S8x24x10x128x128_S192x10x128x128 := by
  simp only [hostOps0_3, hostOps0_4, hostOps0_5, hostOps0_6]
  after_results
  rfl

/-! ## The two arrays at the region's entry -/

variable (m : (ℓ : Loc nD τ sig) → Buf (Elt F) ℓ)

/-- The first window's array at the region's entry: the satellite argument, flattened. -/
theorem V_sat (c : Dev nD) : (V m c main_v11 : S192x10x128x128.Idx → Elt F .f32)
    = shapeCast S192x10x128x128 (m ((c : Thread nD τ).loc main_arg0) : S8x24x10x128x128.Idx → Elt F .f32)
        shapeCasts_S8x24x10x128x128_S192x10x128x128 := by
  dsimp only [V, V0]
  simp only [List.flatten_cons, List.flatten_nil, List.append_nil, StableHlo.after_append]
  rw [sat_eq, keep1_arg0]

/-- The second window's array at the region's entry: the matched climate rows, flattened. -/
theorem V_rows (c : Dev nD) : (V m c main_v12 : S192x1x11.Idx → Elt F .f32)
    = shapeCast S192x1x11 (climRow (F := F) (m ((c : Thread nD τ).loc main_arg1)) (m ((c : Thread nD τ).loc main_arg2))
        (m ((c : Thread nD τ).loc main_arg3))) shapeCasts_S8x24x11_S192x1x11 := by
  dsimp only [V, V0]
  simp only [List.flatten_cons, List.flatten_nil, List.append_nil, StableHlo.after_append]
  rw [rows_eq, any_eq, keep1_arg2, pos_eq]
  rfl

end Cert.KernelIdeal.Host

end
-- ==== Proof.FlatIndex.lean ====
/-
  The result and its two sources read at an index, in the layouts the kernel's program uses.

  The kernel's program flattens the 8 x 24 acquisitions into 192 rows before its pallas call and unflattens
  its output afterwards; a flattening keeps the row-major position, so flat row r is acquisition
  (r / 24, r % 24) and every later coordinate is unchanged. This module reads the three flattenings at an index,
  and reads `fused` at an index: channel ch < 10 is the satellite channel ch, channel ch >= 10 is value ch - 10 of
  the acquisition's climate row, whatever the pixel.
-/
import proofs.«146038_j56023553409154_1_alg».proof.Proof.MatchDates
import Idealize.ShloMosaic.Lib.Pipeline.Value
import Idealize.ShloMosaic.Lib.ValueIdx

noncomputable section

namespace Cert.MatchDates

open Idealize.ShloMosaic Idealize.ShloMosaic.ValueIdx

abbrev Sflat10 : Shape := ⟨4, ![192, 10, 128, 128]⟩
abbrev Sflat1 : Shape := ⟨3, ![192, 1, 11]⟩
abbrev Sflat21 : Shape := ⟨4, ![192, 21, 128, 128]⟩

variable {α : Type}

/-- The acquisition a flat row stands for. -/
abbrev batchOf (r : Fin 192) : Fin 8 := ⟨r.val / 24, by have := r.isLt; omega⟩
abbrev timeOf (r : Fin 192) : Fin 24 := ⟨r.val % 24, by omega⟩

/-- The flattened satellite array at (r, ch, y, x) is the satellite array at (r / 24, r % 24, ch, y, x). -/
theorem flatSat_apply (v : Ssat.Idx → α) (h : Ssat.ShapeCasts Sflat10) (r : Fin 192) (ch : Fin 10) (y x : Fin 128) :
    shapeCast Sflat10 v h (ix4 r ch y x) = v (ix5 (batchOf r) (timeOf r) ch y x) := by
  refine shapeCast_apply v h _ _ ?_
  rw [Shape.rowMajor_val_five, Shape.rowMajor_val_four]
  show ((((r.val / 24) * 24 + r.val % 24) * 10 + ch.val) * 128 + y.val) * 128 + x.val
    = ((r.val * 10 + ch.val) * 128 + y.val) * 128 + x.val
  omega

/-- The flattened climate rows at (r, 0, k) are the climate rows at (r / 24, r % 24, k). -/
theorem flatRow_apply (v : Srow.Idx → α) (h : Srow.ShapeCasts Sflat1) (r : Fin 192) (k : Fin 11) :
    shapeCast Sflat1 v h (ix3 r (0 : Fin 1) k) = v (ix3 (batchOf r) (timeOf r) k) := by
  refine shapeCast_apply v h _ _ ?_
  rw [Shape.rowMajor_val_three, Shape.rowMajor_val_three]
  show ((r.val / 24) * 24 + r.val % 24) * 11 + k.val = (r.val * 1 + 0) * 11 + k.val
  omega

/-- The flattened result at (r, ch, y, x) is the result at (r / 24, r % 24, ch, y, x). -/
theorem flatOut_apply (v : Sout.Idx → α) (h : Sout.ShapeCasts Sflat21) (r : Fin 192) (ch : Fin 21) (y x : Fin 128) :
    shapeCast Sflat21 v h (ix4 r ch y x) = v (ix5 (batchOf r) (timeOf r) ch y x) := by
  refine shapeCast_apply v h _ _ ?_
  rw [Shape.rowMajor_val_five, Shape.rowMajor_val_four]
  show ((((r.val / 24) * 24 + r.val % 24) * 21 + ch.val) * 128 + y.val) * 128 + x.val
    = ((r.val * 21 + ch.val) * 128 + y.val) * 128 + x.val
  omega

/-- The climate row repeated over the pixels, read at an index: the row's value, whatever the pixel. -/
theorem climMap_apply (cl : Srow.Idx → α) (a : Fin 8) (b : Fin 24) (k : Fin 11) (y x : Fin 128) :
    climMap cl (ix5 a b k y x) = cl (ix3 a b k) := by
  unfold climMap
  rw [broadcastInDim_apply _ _ _ (ix5 a b k y x) (ix5 a b k (0 : Fin 1) (0 : Fin 1))
      (fun d => by match d with | ⟨0, _⟩ => rfl | ⟨1, _⟩ => rfl | ⟨2, _⟩ => rfl | ⟨3, _⟩ => rfl | ⟨4, _⟩ => rfl),
    broadcastInDim_apply _ _ _ (ix5 a b k (0 : Fin 1) (0 : Fin 1)) (ix3 a b k)
      (fun d => by match d with | ⟨0, _⟩ => rfl | ⟨1, _⟩ => rfl | ⟨2, _⟩ => rfl)]

/-- A channel below ten of the result is that satellite channel. -/
theorem fused_low (sat : Ssat.Idx → α) (cl : Srow.Idx → α) (a : Fin 8) (b : Fin 24) (ch : Fin 21) (y x : Fin 128)
    (hc : ch.val < 10) : fused sat cl (ix5 a b ch y x) = sat (ix5 a b ⟨ch.val, hc⟩ y x) := by
  unfold fused
  exact concatenate_pair_apply_left (2 : Fin Sout.rank) sat (climMap cl) joins (ix5 a b ch y x) rfl (ix5 a b ⟨ch.val, hc⟩ y x)
    (fun d => by match d with | ⟨0, _⟩ => rfl | ⟨1, _⟩ => rfl | ⟨2, _⟩ => rfl | ⟨3, _⟩ => rfl | ⟨4, _⟩ => rfl)

/-- A channel from ten on of the result is the climate row's value ch - 10. -/
theorem fused_high (sat : Ssat.Idx → α) (cl : Srow.Idx → α) (a : Fin 8) (b : Fin 24) (ch : Fin 21) (y x : Fin 128)
    (hc : 10 ≤ ch.val) : fused sat cl (ix5 a b ch y x) = cl (ix3 a b ⟨ch.val - 10, by have := ch.isLt; omega⟩) := by
  unfold fused
  rw [concatenate_pair_apply_right (2 : Fin Sout.rank) sat (climMap cl) joins (ix5 a b ch y x) rfl rfl
      (ix5 a b (⟨ch.val - 10, by have := ch.isLt; omega⟩ : Fin 11) y x)
      (fun d hd => by
        match d with
        | ⟨0, _⟩ => rfl
        | ⟨1, _⟩ => rfl
        | ⟨2, _⟩ => exact absurd rfl hd
        | ⟨3, _⟩ => rfl
        | ⟨4, _⟩ => rfl)
      (by show ch.val - 10 + 10 = ch.val; omega)]
  exact climMap_apply cl a b _ y x

end Cert.MatchDates

end
-- ==== Proof.KernelValue.lean ====
/-
  The kernel program's result. The pallas call walks 24 grid points; point t stages rows 8t .. 8t+7 of the
  flattened satellite array and of the flattened climate rows, and writes back rows 8t .. 8t+7 of the flattened
  output. What the body leaves there (KernelBody) is, index by index, the flattened `MatchDates.fused`: output row
  8t + b is acquisition ((8t+b) / 24, (8t+b) % 24), whose low channels are that acquisition's satellite channels
  and whose high channels are its matched climate row's values. The 24 blocks cover the 192 rows, so the output
  array ends holding the flattened `fused`, and the host line after the call unflattens it again.
-/
import proofs.«146038_j56023553409154_1_alg».proof.Proof.KernelBody
import proofs.«146038_j56023553409154_1_alg».proof.Proof.KernelHost
import proofs.«146038_j56023553409154_1_alg».proof.Proof.FlatIndex

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx Cert.MatchDates

variable {F : FTy → Type} [FloatOps F]
variable (m : (ℓ : Loc nD τ sig) → Buf (Elt F) ℓ) (ρ : Dev nD → PrngReg)

/-- The satellite argument and the matched climate rows of the launch memory. -/
abbrev satArg (c : Dev nD) : Ssat.Idx → Elt F .f32 := m ((c : Thread nD τ).loc main_arg0)
abbrev rows (c : Dev nD) : Srow.Idx → Elt F .f32 :=
  climRow (F := F) (m ((c : Thread nD τ).loc main_arg1)) (m ((c : Thread nD τ).loc main_arg2)) (m ((c : Thread nD τ).loc main_arg3))

/-- The program's result: the satellite channels and the matched climate rows side by side. -/
abbrev result (c : Dev nD) : Sout.Idx → Elt F .f32 := fused (satArg m c) (rows m c)

/-- What the pallas call's output array ends holding: the result, flattened to 192 rows. -/
def flatResult (c : Dev nD) : Sflat21.Idx → Elt F .f32 := shapeCast Sflat21 (result m c) (by decide)

/-- The three windows move along the first axis only: at point t each is at block t of it. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem lt24 (t : Fin cfg0.N) : t.val < 24 := lt_of_lt_of_eq t.isLt (N_0 : cfg0.N = 24)

/-- The flat row that block row b of point t is. -/
abbrev rowOf (t : Fin cfg0.N) (b : Fin 8) : Fin 192 := ⟨8 * t.val + b.val, by have := lt24 t; have := b.isLt; omega⟩

/-- The satellite block at point t, at (b, ch, y, x): the satellite argument at acquisition row 8t + b. -/
theorem satBlk_apply (c : Dev nD) (t : Fin cfg0.N) (b : Fin 8) (ch : Fin 10) (y x : Fin 128) :
    (iblk m c 0 t : S8x10x128x128.Idx → Elt F .f32) (ix4 b ch y x)
      = satArg m c (ix5 (batchOf (rowOf t b)) (timeOf (rowOf t b)) ch y x) := by
  obtain ⟨e0, e1, e2, e3, -⟩ := idx_facts t
  unfold iblk
  rw [View.read_apply]
  show V m c main_v11 (((cfg0.win 0).blk t).view.emb (ix4 b ch y x)) = _
  rw [Cert.KernelIdeal.Host.V_sat]
  have e : ((cfg0.win 0).blk t).view.emb (ix4 b ch y x) = (ix4 (rowOf t b) ch y x : Sflat10.Idx) := by
    funext a; apply Fin.ext
    match a with
    | ⟨0, _⟩ => show win0_0.index t (0 : Fin 4) * 8 + 1 * b.val = 8 * t.val + b.val; omega
    | ⟨1, _⟩ => show win0_0.index t (1 : Fin 4) * 10 + 1 * ch.val = ch.val; omega
    | ⟨2, _⟩ => show win0_0.index t (2 : Fin 4) * 128 + 1 * y.val = y.val; omega
    | ⟨3, _⟩ => show win0_0.index t (3 : Fin 4) * 128 + 1 * x.val = x.val; omega
  rw [e]
  exact flatSat_apply _ _ (rowOf t b) ch y x

/-- The climate block at point t, at (b, 0, k): value k of the climate row matched to acquisition row 8t + b. -/
theorem rowBlk_apply (c : Dev nD) (t : Fin cfg0.N) (b : Fin 8) (k : Fin 11) :
    (iblk m c 1 t : S8x1x11.Idx → Elt F .f32) (ix3 b (0 : Fin 1) k)
      = rows m c (ix3 (batchOf (rowOf t b)) (timeOf (rowOf t b)) k) := by
  obtain ⟨-, -, -, -, e0, e1, e2, -⟩ := idx_facts t
  unfold iblk
  rw [View.read_apply]
  show V m c main_v12 (((cfg0.win 1).blk t).view.emb (ix3 b (0 : Fin 1) k)) = _
  rw [Cert.KernelIdeal.Host.V_rows]
  have e : ((cfg0.win 1).blk t).view.emb (ix3 b (0 : Fin 1) k) = (ix3 (rowOf t b) (0 : Fin 1) k : Sflat1.Idx) := by
    funext a; apply Fin.ext
    match a with
    | ⟨0, _⟩ => show win0_1.index t (0 : Fin 3) * 8 + 1 * b.val = 8 * t.val + b.val; omega
    | ⟨1, _⟩ => show win0_1.index t (1 : Fin 3) * 1 + 1 * 0 = 0; omega
    | ⟨2, _⟩ => show win0_1.index t (2 : Fin 3) * 11 + 1 * k.val = k.val; omega
  rw [e]
  exact flatRow_apply _ _ (rowOf t b) k

/-- What the body leaves in the output block at point t, at (b, ch, y, x), is the flattened result at row 8t + b. -/
theorem outBlk_apply (c : Dev nD) (t : Fin cfg0.N) (b : Fin 8) (ch : Fin 21) (y x : Fin 128) :
    outsAt0 m c t (ix4 b ch y x) = flatResult m c (ix4 (rowOf t b) ch y x) := by
  unfold outsAt0 flatResult
  rw [flatOut_apply]
  show _ = fused (satArg m c) (rows m c) (ix5 (batchOf (rowOf t b)) (timeOf (rowOf t b)) ch y x)
  rcases Nat.lt_or_ge ch.val 10 with h | h
  · rw [fused_low _ _ _ _ ch y x h]
    refine (Cert.KernelIdeal.Body.out_low c (grid0.coords t) (ms0_0 t) (hs0_0 t) (ms0_1 t) (hs0_1 t) (ms0_2 t) (hs0_2 t)
      (iblk m c 0 t) (iblk m c 1 t) b ⟨ch.val, h⟩ y x).trans ?_
    exact satBlk_apply m c t b ⟨ch.val, h⟩ y x
  · rw [fused_high _ _ _ _ ch y x h]
    have hk : ch.val - 10 < 11 := by have := ch.isLt; omega
    have hch : ch = (⟨10 + (⟨ch.val - 10, hk⟩ : Fin 11).val, by show 10 + (ch.val - 10) < 21; omega⟩ : Fin 21) :=
      Fin.ext (by show ch.val = 10 + (ch.val - 10); omega)
    conv_lhs => rw [hch]
    refine (Cert.KernelIdeal.Body.out_high c (grid0.coords t) (ms0_0 t) (hs0_0 t) (ms0_1 t) (hs0_1 t) (ms0_2 t) (hs0_2 t)
      (iblk m c 0 t) (iblk m c 1 t) b ⟨ch.val - 10, hk⟩ y x).trans ?_
    exact rowBlk_apply m c t b ⟨ch.val - 10, hk⟩

/-- What point t writes back is block t of the flattened result. -/
theorem flushed_eq (c : Dev nD) (t : Fin cfg0.N) :
    (dats m 0 c).flushed 2 t = ((cfg0.win 2).blk t).view.read (Elt F) (flatResult m c) := by
  obtain ⟨-, -, -, -, -, -, -, e0, e1, e2, e3⟩ := idx_facts t
  show (cfg0.win 2).cut (grid0.coords t) ((dats m 0 c).after 2 t) = _
  rw [after0_2]
  funext j
  have hj0 : (j 0).val < 8 := (j 0).isLt
  have hj1 : (j 1).val < 21 := (j 1).isLt
  have hj2 : (j 2).val < 128 := (j 2).isLt
  have hj3 : (j 3).val < 128 := (j 3).isLt
  have hb := outBlk_apply m c t ⟨(j 0).val, hj0⟩ ⟨(j 1).val, hj1⟩ ⟨(j 2).val, hj2⟩ ⟨(j 3).val, hj3⟩
  refine Eq.trans ?_ (hb.trans ?_)
  · show outsAt0 m c t ((cfg0.win 2).xinj (grid0.coords t) j) = _
    refine congrArg (outsAt0 m c t) ?_
    funext a
    match a with
    | ⟨0, _⟩ => rfl
    | ⟨1, _⟩ => rfl
    | ⟨2, _⟩ => rfl
    | ⟨3, _⟩ => rfl
  · show flatResult m c _ = flatResult m c (((cfg0.win 2).blk t).view.emb j)
    refine congrArg (flatResult m c) ?_
    funext a; apply Fin.ext
    match a with
    | ⟨0, _⟩ => show 8 * t.val + (j 0).val = win0_2.index t (0 : Fin 4) * 8 + 1 * (j 0).val; omega
    | ⟨1, _⟩ => show (j 1).val = win0_2.index t (1 : Fin 4) * 21 + 1 * (j 1).val; omega
    | ⟨2, _⟩ => show (j 2).val = win0_2.index t (2 : Fin 4) * 128 + 1 * (j 2).val; omega
    | ⟨3, _⟩ => show (j 3).val = win0_2.index t (3 : Fin 4) * 128 + 1 * (j 3).val; omega

/-- An index of the output array is in point t's block iff each coordinate is in the block's range on its axis. -/
theorem mem_blk (t : Fin cfg0.N) (i : S192x21x128x128.Idx) :
    i ∈ ((cfg0.win 2).blk t).view.set ↔ ∀ a : Fin 4, win0_2.index t a * S8x21x128x128.size a ≤ (i a).val
      ∧ (i a).val < win0_2.index t a * S8x21x128x128.size a + S8x21x128x128.size a := by
  show i ∈ ((View.whole main_v13).slice (win0_2.rect t)).set ↔ _
  rw [View.set_slice_whole, Rect.mem_set_unit]
  exact Iff.rfl

/-- The 24 blocks cover the 192 rows: row r lies in the block of point r / 8. -/
theorem cover (i : S192x21x128x128.Idx) : ∃ t : Fin cfg0.N, (cfg0.win 2).flush t = true ∧ i ∈ ((cfg0.win 2).blk t).view.set := by
  have hi0 : (i 0).val < 192 := (i 0).isLt
  have hi1 : (i 1).val < 21 := (i 1).isLt
  have hi2 : (i 2).val < 128 := (i 2).isLt
  have hi3 : (i 3).val < 128 := (i 3).isLt
  have hN : cfg0.N = 24 := N_0
  obtain ⟨t, ht⟩ : ∃ t : Fin cfg0.N, t.val = (i 0).val / 8 := ⟨⟨(i 0).val / 8, by rw [hN]; omega⟩, rfl⟩
  obtain ⟨-, -, -, -, -, -, -, e0, e1, e2, e3⟩ := idx_facts t
  refine ⟨t, flush0_2 t, ?_⟩
  rw [mem_blk]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 21 ≤ (i 1).val ∧ (i 1).val < win0_2.index t (1 : Fin 4) * 21 + 21; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- The output array after the run is the flattened result. -/
theorem final (c : Dev nD) : (dats m 0 c).arrAt 2 cfg0.N = flatResult m c :=
  (dats m 0 c).arrAt_eq_of_cover 2 (flatResult m c) (fun t _ => flushed_eq m c t) (cover)

/-- The host line after the call unflattens the output array: the program's result buffer ends at the result. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  have hw : Pipeline.withArrays (cfgs (0 : Fin 1)).spec c (V0 m c) (fun w => (dats m 0 c).arrAt w (cfgs (0 : Fin 1)).N) (Proc.devRef .tc main_v13)
      = flatResult m c := (Pipeline.withArrays_arr spec0 launch0.win.arr_inj c _ _ 2).trans (final m c)
  show shapeCast S8x24x21x128x128 (Pipeline.withArrays (cfgs (0 : Fin 1)).spec c (V0 m c) (fun w => (dats m 0 c).arrAt w (cfgs (0 : Fin 1)).N) (Proc.devRef .tc main_v13))
    shapeCasts_S192x21x128x128_S8x24x21x128x128 = _
  rw [hw]
  unfold flatResult
  exact shapeCast_shapeCast _ _ _

/-- The run, read: the result buffer at the result, the four arguments as launched. -/
theorem run : θ_run defs (onTc (τ := τ) (main (F := F))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.RefRun.lean ====
/-
  The reference program's run: its @main is a straight line of host operations — the date comparison, the
  arg-max, the any-reduction, the row gather with its bounds handling, the pad select, the two broadcasts over the
  pixels and the join along the channel axis — with the three outlined functions (the arg-max, the take along the
  table axis, the select) written out at their calls. Every weakly fair execution therefore ends with each buffer
  at the composition of those operations on the arguments, and the composition at the result buffer is
  `MatchDates.fused` of the satellite array and the matched climate rows.

  The composition is read in two stretches. The first thirteen lines end with the any-flag and the first matching
  position of every acquisition; the remaining thirty read those two, the climate table and the satellite array,
  and nothing else of the first stretch. Reading the second stretch over ANY contents of the buffers keeps the
  position — which the take uses nine times over — a single name.
-/
import proofs.«146038_j56023553409154_1_alg».proof.Proof.Gen.ReferenceIdeal
import proofs.«146038_j56023553409154_1_alg».proof.Proof.MatchDates
import Idealize.ShloMosaic.Lib.StableHlo.Run
import Idealize.ShloMosaic.Lib.Pipeline.Frame

noncomputable section

namespace Cert.ReferenceIdeal.RefRun

open Cert.ReferenceIdeal Idealize.ShloMosaic Idealize.ShloMosaic.TcCoe Idealize.SL.Sem
open Idealize.ShloMosaic.StableHlo
open Cert.ReferenceIdeal.Facts₀ Cert.MatchDates

variable {F : FTy → Type} [FloatOps F]

/-- The first stretch: the flags, the arg-max, the any-reduction, the position laid as a column. -/
abbrev ops1 : List (HloOp τ sig (Elt F)) :=
  [ StableHlo.unary main_arg1 main_v0 (broadcastInDim S8x24x1 ![0, 1] bcast_S8x24_S8x24x1_0_1 : (⟨S8x24, .i32⟩ : BufTy).Contents (Elt F) → (⟨S8x24x1, .i32⟩ : BufTy).Contents (Elt F)),
    StableHlo.unary main_arg3 main_v1 (broadcastInDim S8x1x365 ![0, 2] bcast_S8x365_S8x1x365_0_2 : (⟨S8x365, .i32⟩ : BufTy).Contents (Elt F) → (⟨S8x1x365, .i32⟩ : BufTy).Contents (Elt F)),
    StableHlo.unary main_v0 main_v2 (broadcastInDim S8x24x365 ![0, 1, 2] bcast_S8x24x1_S8x24x365_0_1_2 : (⟨S8x24x1, .i32⟩ : BufTy).Contents (Elt F) → (⟨S8x24x365, .i32⟩ : BufTy).Contents (Elt F)),
    StableHlo.unary main_v1 main_v3 (broadcastInDim S8x24x365 ![0, 1, 2] bcast_S8x1x365_S8x24x365_0_1_2 : (⟨S8x1x365, .i32⟩ : BufTy).Contents (Elt F) → (⟨S8x24x365, .i32⟩ : BufTy).Contents (Elt F)),
    StableHlo.binary main_v2 main_v3 main_v4 (cmpi .eq : (⟨S8x24x365, .i32⟩ : BufTy).Contents (Elt F) → (⟨S8x24x365, .i32⟩ : BufTy).Contents (Elt F) → (⟨S8x24x365, .i1⟩ : BufTy).Contents (Elt F)),
    StableHlo.TRef.nullary (.of main_call0_v0 : StableHlo.TRef sig ⟨S8x24x365, .i32⟩) (iotaInDim S8x24x365 32 2),
    StableHlo.TRef.nullary (.of main_call0_c : StableHlo.TRef sig ⟨S_, .i1⟩) (constantI S_ 1 0#1),
    StableHlo.TRef.nullary (.of main_call0_c_0 : StableHlo.TRef sig ⟨S_, .i32⟩) (constantI S_ 32 0#32),
    StableHlo.TRef.quaternary (.of main_v4 : StableHlo.TRef sig ⟨S8x24x365, .i1⟩) (.of main_call0_v0 : StableHlo.TRef sig ⟨S8x24x365, .i32⟩) (.of main_call0_c : StableHlo.TRef sig ⟨S_, .i1⟩) (.of main_call0_c_0 : StableHlo.TRef sig ⟨S_, .i32⟩) (.of main_call0_v1_0 : StableHlo.TRef sig ⟨S8x24, .i1⟩) (fun x y u v j => (Host.reduce2 reducer_argmax_i1_i32 x y u v reducesTo_S8x24x365_S8x24_d2 h_S_ j).1),
    StableHlo.TRef.quaternary (.of main_v4 : StableHlo.TRef sig ⟨S8x24x365, .i1⟩) (.of main_call0_v0 : StableHlo.TRef sig ⟨S8x24x365, .i32⟩) (.of main_call0_c : StableHlo.TRef sig ⟨S_, .i1⟩) (.of main_call0_c_0 : StableHlo.TRef sig ⟨S_, .i32⟩) (.of main_v5 : StableHlo.TRef sig ⟨S8x24, .i32⟩) (fun x y u v j => (Host.reduce2 reducer_argmax_i1_i32 x y u v reducesTo_S8x24x365_S8x24_d2 h_S_ j).2),
    StableHlo.nullary main_c (constantI S_ 1 0#1),
    StableHlo.binary main_v4 main_c main_v6 ((fun x v => Host.reduce IntOp.ori x v reducesTo_S8x24x365_S8x24_d2 h_S_) : (⟨S8x24x365, .i1⟩ : BufTy).Contents (Elt F) → (⟨S_, .i1⟩ : BufTy).Contents (Elt F) → (⟨S8x24, .i1⟩ : BufTy).Contents (Elt F)),
    StableHlo.unary main_v5 main_v7 (broadcastInDim S8x24x1 ![0, 1] bcast_S8x24_S8x24x1_0_1 : (⟨S8x24, .i32⟩ : BufTy).Contents (Elt F) → (⟨S8x24x1, .i32⟩ : BufTy).Contents (Elt F)) ]

/-- The second stretch: the take along the table axis, the pad select, the repetition over the pixels, the join. -/
abbrev ops2 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8x24x1, .i32⟩) (broadcastInDim S8x24x1 ![] bcast_S_S8x24x1),
    StableHlo.TRef.binary (.of main_v7 : StableHlo.TRef sig ⟨S8x24x1, .i32⟩) (.of main_call1_v0 : StableHlo.TRef sig ⟨S8x24x1, .i32⟩) (.of main_call1_v1 : StableHlo.TRef sig ⟨S8x24x1, .i1⟩) (cmpi .slt),
    StableHlo.TRef.nullary (.of main_call1_c_0 : StableHlo.TRef sig ⟨S_, .i32⟩) (constantI S_ 32 365#32),
    StableHlo.TRef.unary (.of main_call1_c_0 : StableHlo.TRef sig ⟨S_, .i32⟩) (.of main_call1_v2 : StableHlo.TRef sig ⟨S8x24x1, .i32⟩) (broadcastInDim S8x24x1 ![] bcast_S_S8x24x1),
    StableHlo.TRef.binary (.of main_v7 : StableHlo.TRef sig ⟨S8x24x1, .i32⟩) (.of main_call1_v2 : StableHlo.TRef sig ⟨S8x24x1, .i32⟩) (.of main_call1_v3 : StableHlo.TRef sig ⟨S8x24x1, .i32⟩) addi,
    StableHlo.TRef.ternary (.of main_call1_v1 : StableHlo.TRef sig ⟨S8x24x1, .i1⟩) (.of main_call1_v3 : StableHlo.TRef sig ⟨S8x24x1, .i32⟩) (.of main_v7 : StableHlo.TRef sig ⟨S8x24x1, .i32⟩) (.of main_call1_v4 : StableHlo.TRef sig ⟨S8x24x1, .i32⟩) select,
    StableHlo.TRef.nullary (.of main_call1_c_1 : StableHlo.TRef sig ⟨S1, .i32⟩) (constantI S1 32 364#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v5 : StableHlo.TRef sig ⟨S8x24x1, .i32⟩) (broadcastInDim S8x24x1 ![] bcast_S_S8x24x1),
    StableHlo.TRef.binary (.of main_call1_v4 : StableHlo.TRef sig ⟨S8x24x1, .i32⟩) (.of main_call1_v5 : StableHlo.TRef sig ⟨S8x24x1, .i32⟩) (.of main_call1_v6 : StableHlo.TRef sig ⟨S8x24x1, .i1⟩) (cmpi .sge),
    StableHlo.TRef.unary (.of main_call1_c_1 : StableHlo.TRef sig ⟨S1, .i32⟩) (.of main_call1_v7 : StableHlo.TRef sig ⟨S1x1x1, .i32⟩) (broadcastInDim S1x1x1 ![2] bcast_S1_S1x1x1_2),
    StableHlo.TRef.unary (.of main_call1_v7 : StableHlo.TRef sig ⟨S1x1x1, .i32⟩) (.of main_call1_v8 : StableHlo.TRef sig ⟨S8x24x1, .i32⟩) (broadcastInDim S8x24x1 ![0, 1, 2] bcast_S1x1x1_S8x24x1_0_1_2),
    StableHlo.TRef.binary (.of main_call1_v4 : StableHlo.TRef sig ⟨S8x24x1, .i32⟩) (.of main_call1_v8 : StableHlo.TRef sig ⟨S8x24x1, .i32⟩) (.of main_call1_v9 : StableHlo.TRef sig ⟨S8x24x1, .i1⟩) (cmpi .sle),
    StableHlo.TRef.binary (.of main_call1_v6 : StableHlo.TRef sig ⟨S8x24x1, .i1⟩) (.of main_call1_v9 : StableHlo.TRef sig ⟨S8x24x1, .i1⟩) (.of main_call1_v10 : StableHlo.TRef sig ⟨S8x24x1, .i1⟩) andi,
    StableHlo.TRef.nullary (.of main_call1_c_3 : StableHlo.TRef sig ⟨S_, .i1⟩) (constantI S_ 1 1#1),
    StableHlo.TRef.binary (.of main_call1_v10 : StableHlo.TRef sig ⟨S8x24x1, .i1⟩) (.of main_call1_c_3 : StableHlo.TRef sig ⟨S_, .i1⟩) (.of main_call1_v11 : StableHlo.TRef sig ⟨S8x24, .i1⟩) (fun x v => Host.reduce IntOp.andi x v reducesTo_S8x24x1_S8x24_d2 h_S_),
    StableHlo.TRef.binary (.of main_arg2 : StableHlo.TRef sig ⟨S8x365x11, .f32⟩) (.of main_call1_v4 : StableHlo.TRef sig ⟨S8x24x1, .i32⟩) (.of main_call1_v12 : StableHlo.TRef sig ⟨S8x24x11, .f32⟩) (fun x i => Host.gather gather_S8x365x11_S8x24x1_S8x24x11_2_1_0_0_1_2_1111 x i),
    StableHlo.TRef.unary (.of main_call1_v11 : StableHlo.TRef sig ⟨S8x24, .i1⟩) (.of main_call1_v13 : StableHlo.TRef sig ⟨S8x24x11, .i1⟩) (broadcastInDim S8x24x11 ![0, 1] bcast_S8x24_S8x24x11_0_1),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S8x24x11, .f32⟩) (broadcastInDim S8x24x11 ![] bcast_S_S8x24x11),
    StableHlo.TRef.ternary (.of main_call1_v13 : StableHlo.TRef sig ⟨S8x24x11, .i1⟩) (.of main_call1_v12 : StableHlo.TRef sig ⟨S8x24x11, .f32⟩) (.of main_call1_v14 : StableHlo.TRef sig ⟨S8x24x11, .f32⟩) (.of main_v8 : StableHlo.TRef sig ⟨S8x24x11, .f32⟩) select,
    StableHlo.unary main_v6 main_v9 (broadcastInDim S8x24x1 ![0, 1] bcast_S8x24_S8x24x1_0_1 : (⟨S8x24, .i1⟩ : BufTy).Contents (Elt F) → (⟨S8x24x1, .i1⟩ : BufTy).Contents (Elt F)),
    StableHlo.nullary main_cst (constant S_ .f32 0xC47A0000#32),
    StableHlo.TRef.unary (.of main_v9 : StableHlo.TRef sig ⟨S8x24x1, .i1⟩) (.of main_call2_v0 : StableHlo.TRef sig ⟨S8x24x11, .i1⟩) (broadcastInDim S8x24x11 ![0, 1, 2] bcast_S8x24x1_S8x24x11_0_1_2),
    StableHlo.TRef.unary (.of main_cst : StableHlo.TRef sig ⟨S_, .f32⟩) (.of main_call2_v1 : StableHlo.TRef sig ⟨S8x24x11, .f32⟩) (broadcastInDim S8x24x11 ![] bcast_S_S8x24x11),
    StableHlo.TRef.ternary (.of main_call2_v0 : StableHlo.TRef sig ⟨S8x24x11, .i1⟩) (.of main_v8 : StableHlo.TRef sig ⟨S8x24x11, .f32⟩) (.of main_call2_v1 : StableHlo.TRef sig ⟨S8x24x11, .f32⟩) (.of main_v10 : StableHlo.TRef sig ⟨S8x24x11, .f32⟩) select,
    StableHlo.unary main_v10 main_v11 (broadcastInDim S8x24x11x1x1 ![0, 1, 2] bcast_S8x24x11_S8x24x11x1x1_0_1_2 : (⟨S8x24x11, .f32⟩ : BufTy).Contents (Elt F) → (⟨S8x24x11x1x1, .f32⟩ : BufTy).Contents (Elt F)),
    StableHlo.unary main_v11 main_v12 (broadcastInDim S8x24x11x128x128 ![0, 1, 2, 3, 4] bcast_S8x24x11x1x1_S8x24x11x128x128_0_1_2_3_4 : (⟨S8x24x11x1x1, .f32⟩ : BufTy).Contents (Elt F) → (⟨S8x24x11x128x128, .f32⟩ : BufTy).Contents (Elt F)),
    StableHlo.binary main_arg0 main_v12 main_v13 ((fun a b => concatenate S8x24x21x128x128 2 [⟨S8x24x10x128x128, a⟩, ⟨S8x24x11x128x128, b⟩] concatenates_S8x24x10x128x128_S8x24x11x128x128_S8x24x21x128x128_d2) : (⟨S8x24x10x128x128, .f32⟩ : BufTy).Contents (Elt F) → (⟨S8x24x11x128x128, .f32⟩ : BufTy).Contents (Elt F) → (⟨S8x24x21x128x128, .f32⟩ : BufTy).Contents (Elt F)) ]

/-- @main's forty-three operations in order, the outlined functions' lines in place of their calls. -/
abbrev ops : List (HloOp τ sig (Elt F)) := ops1 ++ ops2

-- forty-three binds re-associated under one chain
set_option maxRecDepth 2048 in
/-- @main is that straight line: the outlined functions unfolded at their calls, sequencing re-associated. -/
theorem main_eq (c : Dev nD) : main (F := F) c = StableHlo.seq ops := by
  simp only [main, fn_argmax.body, fn_take_along_axis.body, fn_where.body, ops, ops1, ops2, List.cons_append, List.nil_append,
    StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.binary_bufs_sub .., StableHlo.unary_bufs_sub ..⟩
theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem ops_sub : (ops : List (HloOp τ sig (Elt F))).Forall fun op => op.bufs ⊆ StableHlo.tcRefs τ sig :=
  List.forall_iff_forall_mem.mpr fun op h => by
    simp only [ops, List.mem_append] at h
    rcases h with h | h
    exacts [List.forall_iff_forall_mem.mp ops1_sub op h, List.forall_iff_forall_mem.mp ops2_sub op h]

/-- Every weakly fair execution of @main terminates with every buffer at the fold of the operations over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

/-! ## The first stretch, over any contents -/

/-- After the first stretch the any-flag buffer holds whether some climate date equals the acquisition's. -/
theorem any_eq (V : Valuation τ sig (Elt F)) :
    after ops1 V (Proc.devRef .tc main_v6) = anyDay (sameDay (V (Proc.devRef .tc main_arg1)) (V (Proc.devRef .tc main_arg3))) := by
  after_results
  rfl

/-- After the first stretch the position buffer holds the first matching position, as a column. -/
theorem pos_eq (V : Valuation τ sig (Elt F)) :
    after ops1 V (Proc.devRef .tc main_v7)
      = broadcastInDim Sdate1 ![0, 1] (by decide) (firstDay (sameDay (V (Proc.devRef .tc main_arg1)) (V (Proc.devRef .tc main_arg3)))) := by
  after_results
  rfl

theorem keep1_arg0 (V : Valuation τ sig (Elt F)) : after ops1 V (Proc.devRef .tc main_arg0) = V (Proc.devRef .tc main_arg0) := by
  after_results
theorem keep1_arg2 (V : Valuation τ sig (Elt F)) : after ops1 V (Proc.devRef .tc main_arg2) = V (Proc.devRef .tc main_arg2) := by
  after_results

/-! ## The second stretch, over any contents -/

set_option maxHeartbeats 2000000 in
/-- The second stretch leaves in the result buffer the join of the satellite array with, per acquisition, the taken
    row where the any-flag is set and the pad value elsewhere. -/
theorem join_eq (W : Valuation τ sig (Elt F)) :
    after ops2 W (Proc.devRef .tc main_v13)
      = fused (W (Proc.devRef .tc main_arg0))
          (select (broadcastInDim Srow ![0, 1, 2] (by decide) (broadcastInDim Sdate1 ![0, 1] (by decide) (W (Proc.devRef .tc main_v6))))
            (takeDay (W (Proc.devRef .tc main_arg2)) (W (Proc.devRef .tc main_v7)))
            (broadcastInDim Srow ![] (by decide) (constant S0 .f32 0xC47A0000#32))) := by
  after_results
  rfl

/-- The fold at the result buffer is `fused` of the satellite argument and the matched climate rows of the other
    three. -/
theorem result_eq (V : Valuation τ sig (Elt F)) :
    after ops V (Proc.devRef .tc main_v13)
      = fused (V (Proc.devRef .tc main_arg0))
          (climRow (V (Proc.devRef .tc main_arg1)) (V (Proc.devRef .tc main_arg2)) (V (Proc.devRef .tc main_arg3))) := by
  rw [show (ops : List (HloOp τ sig (Elt F))) = ops1 ++ ops2 from rfl, StableHlo.after_append, join_eq, keep1_arg0, any_eq, keep1_arg2, pos_eq]
  rfl

theorem keep1_arg1 (V : Valuation τ sig (Elt F)) : after ops1 V (Proc.devRef .tc main_arg1) = V (Proc.devRef .tc main_arg1) := by
  after_results
theorem keep1_arg3 (V : Valuation τ sig (Elt F)) : after ops1 V (Proc.devRef .tc main_arg3) = V (Proc.devRef .tc main_arg3) := by
  after_results
theorem keep2_arg0 (W : Valuation τ sig (Elt F)) : after ops2 W (Proc.devRef .tc main_arg0) = W (Proc.devRef .tc main_arg0) := by
  after_results
theorem keep2_arg1 (W : Valuation τ sig (Elt F)) : after ops2 W (Proc.devRef .tc main_arg1) = W (Proc.devRef .tc main_arg1) := by
  after_results
theorem keep2_arg2 (W : Valuation τ sig (Elt F)) : after ops2 W (Proc.devRef .tc main_arg2) = W (Proc.devRef .tc main_arg2) := by
  after_results
theorem keep2_arg3 (W : Valuation τ sig (Elt F)) : after ops2 W (Proc.devRef .tc main_arg3) = W (Proc.devRef .tc main_arg3) := by
  after_results

theorem arg0_eq (V : Valuation τ sig (Elt F)) : after ops V (Proc.devRef .tc main_arg0) = V (Proc.devRef .tc main_arg0) := by
  rw [show (ops : List (HloOp τ sig (Elt F))) = ops1 ++ ops2 from rfl, StableHlo.after_append, keep2_arg0, keep1_arg0]
theorem arg1_eq (V : Valuation τ sig (Elt F)) : after ops V (Proc.devRef .tc main_arg1) = V (Proc.devRef .tc main_arg1) := by
  rw [show (ops : List (HloOp τ sig (Elt F))) = ops1 ++ ops2 from rfl, StableHlo.after_append, keep2_arg1, keep1_arg1]
theorem arg2_eq (V : Valuation τ sig (Elt F)) : after ops V (Proc.devRef .tc main_arg2) = V (Proc.devRef .tc main_arg2) := by
  rw [show (ops : List (HloOp τ sig (Elt F))) = ops1 ++ ops2 from rfl, StableHlo.after_append, keep2_arg2, keep1_arg2]
theorem arg3_eq (V : Valuation τ sig (Elt F)) : after ops V (Proc.devRef .tc main_arg3) = V (Proc.devRef .tc main_arg3) := by
  rw [show (ops : List (HloOp τ sig (Elt F))) = ops1 ++ ops2 from rfl, StableHlo.after_append, keep2_arg3, keep1_arg3]

/-- The run, read: the result buffer at `fused`, the four arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = fused (m ((c.tc : Thread nD τ).loc main_arg0))
            (climRow (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (result_eq _), (h c main_arg0).trans (arg0_eq _),
      (h c main_arg1).trans (arg1_eq _), (h c main_arg2).trans (arg2_eq _), (h c main_arg3).trans (arg3_eq _)⟩)
    (run_all m ρ)

end Cert.ReferenceIdeal.RefRun

end
-- ==== Proof.lean ====
/-
  The kernel fuses, per acquisition, ten satellite channels with the eleven values of the climate row whose date
  matches the acquisition's: both programs first compute the matched rows by the same date comparison, arg-max,
  gather and pad select (`MatchDates.climRow`), and then lay satellite channels and climate values side by side
  along the channel axis (`MatchDates.fused`). The reference does the second step on the host, by two broadcasts and
  a join; the kernel's program flattens the acquisitions to 192 rows, lets a pallas call copy the satellite block
  and repeat the climate values over the pixels block by block, and unflattens. No float is computed with, so the
  two results are equal as they stand, with no appeal to the inputs being finite.

  `frame_Kernel` and `frame_KernelIdeal` are the generated frames; `frame_ReferenceIdeal` is the reference's run with
  its result dropped; the ideal pass rewrote nothing, so `preserves` is trivial; `algebraic` sets the kernel program's
  run (Proof/KernelValue) beside the reference's (Proof/RefRun), both at `MatchDates.fused`.
-/
import proofs.«146038_j56023553409154_1_alg».proof.Defs
import proofs.«146038_j56023553409154_1_alg».proof.Proof.Gen.Kernel
import proofs.«146038_j56023553409154_1_alg».proof.Proof.Gen.Kernel.Skeleton
import proofs.«146038_j56023553409154_1_alg».proof.Proof.Gen.Kernel.Launch
import proofs.«146038_j56023553409154_1_alg».proof.Proof.Gen.Kernel.Points
import proofs.«146038_j56023553409154_1_alg».proof.Proof.Gen.Kernel.Frame
import proofs.«146038_j56023553409154_1_alg».proof.Proof.Gen.KernelIdeal
import proofs.«146038_j56023553409154_1_alg».proof.Proof.Gen.KernelIdeal.Skeleton
import proofs.«146038_j56023553409154_1_alg».proof.Proof.Gen.KernelIdeal.Launch
import proofs.«146038_j56023553409154_1_alg».proof.Proof.Gen.KernelIdeal.Points
import proofs.«146038_j56023553409154_1_alg».proof.Proof.Gen.KernelIdeal.Frame
import proofs.«146038_j56023553409154_1_alg».proof.Proof.Gen.ReferenceIdeal
import proofs.«146038_j56023553409154_1_alg».proof.Proof.Gen.Pre_finite_inputs
import proofs.«146038_j56023553409154_1_alg».proof.Proof.KernelValue
import proofs.«146038_j56023553409154_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at `fused` of the satellite argument and the matched climate rows; the arguments agree. -/
theorem algebraic : Cert.algebraic_KernelIdeal_ReferenceIdeal := by
  intro m ρ m' ρ' _ hagree
  refine ⟨fun c => Cert.KernelIdeal.Value.result m c, Cert.KernelIdeal.Value.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
